-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1024 : Shape := ⟨2, ![8192, 1024]⟩
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S4096 .f32) (main_arg5 : FVec F S4096 .f32) (main_arg6 : FVec F S1024 .f32) (main_arg7 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x4096 .f32) (main_arg1 : FVec F S8192x1024 .f32) (main_arg2 : FVec F S8192x1024 .f32) (main_arg3 : FVec F S4096x1024 .f32) (main_arg4 : FVec F S4096 .f32) (main_arg5 : FVec F S4096 .f32) (main_arg6 : FVec F S1024 .f32) (main_arg7 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v13 main_v16
-- ==== Kernel.lean ====
abbrev S8192x4096 : Shape := ⟨2, ![8192, 4096]⟩
abbrev S8192x1024 : Shape := ⟨2, ![8192, 1024]⟩
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S1024x4096, .bf16⟩
  | .hbm, ⟨10, _⟩ => ⟨S1x4096, .f32⟩
  | .hbm, ⟨11, _⟩ => ⟨S1x4096, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x1024, .f32⟩
  | .local _ .vmem, ⟨0, _⟩ => ⟨S256x4096, .f32⟩
  | .local _ .vmem, ⟨1, _⟩ => ⟨S256x4096, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1x4096, .f32⟩
  | .local _ .vmem, ⟨8, _⟩ => ⟨S1x4096, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x4096_S256 : S256x4096.Reduces [1] S256
  shapeCasts_S256_S256x1 : S256.ShapeCasts S256x1
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S256x1024_S256 : S256x1024.Reduces [1] S256
  broadcasts_S256x1_S256x1024 : S256x1.Broadcasts S256x1024
  broadcasts_S1x1024_S256x1024 : S1x1024.Broadcasts S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x1024 : Shape := ⟨2, ![8192, 1024]⟩
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x1024, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S1x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]

class Facts₀ : Prop where
  transposes_S4096x1024_S1024x4096_1_0 : S4096x1024.Transposes [1, 0] S1024x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  reducesTo_S8192x1024_S8192_d1 : S8192x1024.ReducesTo [1] S8192
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.RowSpec.lean ====
/-
  One step of an LSTM cell whose recurrent gates and whose new cell state are layer-normalised, written row by row
  on the extended reals.

  For one batch row with input pre-activations `xin` (4096 wide), previous hidden state `h` and previous cell state `c`
  (1024 wide), recurrent weights `w` (4096 × 1024), and the two layer norms' gains and biases:

    hmat j  = ∑ k, h k · w j k                                  the recurrent product, one entry per gate column
    gate j  = xin j + LN₄₀₉₆(hmat; gh, bh) j                     the four gates' pre-activations side by side
    pre q   = σ(gate (1024 + q)) · c q + σ(gate q) · tanh(gate (2048 + q))
    cell q  = LN₁₀₂₄(pre; gc, bc) q                              the new cell state
    hid q   = σ(gate (3072 + q)) · tanh(cell q)                  the new hidden state

  where LN_N(x; g, b) j = (x j − μ) · rsqrt(var + ε) · g j + b j with μ = (∑ x)/N and var = (∑ (x − μ)²)/N, the width N and
  ε being the float words the two programs share, read as the extended reals they denote. Every operation is the
  exact one on the extended reals, so the definitions hold at infinite entries too and no finiteness is asked.
  Nothing here mentions a program: the kernel's blocks and the reference's stages are both shown to be these
  functions of the argument arrays' rows.
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-! ## The shared float words -/

/-- The width of a gate row, the float 4096.0. -/
abbrev width4 : EReal := Ideal.ofBits .f32 0x45800000#32
/-- The width of a state row, the float 1024.0. -/
abbrev width1 : EReal := Ideal.ofBits .f32 0x44800000#32
/-- The layer norms' ε, the float nearest 1e-5. -/
abbrev eps : EReal := Ideal.ofBits .f32 0x3727C5AC#32

/-- The float word of 1.0 denotes the extended real one. -/
theorem ofBits_one_f32 : Ideal.ofBits .f32 0x3F800000#32 = 1 := IdealRules.sign_bit.ideal_onePat .f32

/-- The logistic function is the quotient the reference spells out: 1 / (1 + e^(−x)), on every extended real. -/
theorem logistic_eq (x : EReal) : Ideal.logistic x = Ideal.div 1 (1 + Ideal.exp (-x)) := rfl

/-! ## A row's layer normalisation -/

/-- A row's mean: its sum over the width word. -/
def mean {n : ℕ} (N : EReal) (x : Fin n → EReal) : EReal := Ideal.div (∑ k, x k) N

/-- A row's variance about its mean, again over the width word. -/
def variance {n : ℕ} (N : EReal) (x : Fin n → EReal) : EReal :=
  Ideal.div (∑ k, (x k - mean N x) * (x k - mean N x)) N

/-- Layer normalisation of the row `x` with gain `g` and bias `b`, at column `j`. -/
def lnorm {n : ℕ} (N : EReal) (x g b : Fin n → EReal) (j : Fin n) : EReal :=
  (x j - mean N x) * Ideal.rsqrt (variance N x + eps) * g j + b j

/-! ## The four gates' columns inside a gate row -/

/-- Input gate: columns 0 … 1023. -/
def colI (q : Fin 1024) : Fin 4096 := ⟨q.val, by have := q.isLt; omega⟩
/-- Forget gate: columns 1024 … 2047. -/
def colF (q : Fin 1024) : Fin 4096 := ⟨q.val + 1024, by have := q.isLt; omega⟩
/-- Cell candidate: columns 2048 … 3071. -/
def colC (q : Fin 1024) : Fin 4096 := ⟨q.val + 2048, by have := q.isLt; omega⟩
/-- Output gate: columns 3072 … 4095. -/
def colO (q : Fin 1024) : Fin 4096 := ⟨q.val + 3072, by have := q.isLt; omega⟩

/-! ## One row of the cell -/

/-- The gates' pre-activations: the input's row plus the layer-normalised recurrent product. -/
def gate (xin : Fin 4096 → EReal) (h : Fin 1024 → EReal) (w : Fin 4096 → Fin 1024 → EReal) (gh bh : Fin 4096 → EReal)
    (j : Fin 4096) : EReal :=
  xin j + lnorm width4 (fun j' => ∑ k, h k * w j' k) gh bh j

/-- The cell state before its layer norm: forget · old cell + input · candidate. -/
def preCell (G : Fin 4096 → EReal) (c : Fin 1024 → EReal) (q : Fin 1024) : EReal :=
  Ideal.logistic (G (colF q)) * c q + Ideal.logistic (G (colI q)) * Ideal.tanh (G (colC q))

/-- The new cell state. -/
def cell (G : Fin 4096 → EReal) (c gc bc : Fin 1024 → EReal) (q : Fin 1024) : EReal :=
  lnorm width1 (preCell G c) gc bc q

/-- The new hidden state. -/
def hidden (G : Fin 4096 → EReal) (c gc bc : Fin 1024 → EReal) (q : Fin 1024) : EReal :=
  Ideal.logistic (G (colO q)) * Ideal.tanh (cell G c gc bc q)

/-! ## The two result arrays as functions of the eight argument arrays -/

abbrev ShIn : Shape := ⟨2, ![8192, 4096]⟩
abbrev ShH : Shape := ⟨2, ![8192, 1024]⟩
abbrev ShW : Shape := ⟨2, ![4096, 1024]⟩
abbrev ShV4 : Shape := ⟨1, ![4096]⟩
abbrev ShV1 : Shape := ⟨1, ![1024]⟩

section arrays

variable (a0 : ShIn.Idx → EReal) (a1 a2 : ShH.Idx → EReal) (a3 : ShW.Idx → EReal) (a4 a5 : ShV4.Idx → EReal)
  (a6 a7 : ShV1.Idx → EReal)

/-- Batch row `r`'s gates, from row `r` of the input and of the hidden state and the whole weight matrix. -/
def gateRow (r : Fin 8192) : Fin 4096 → EReal :=
  gate (fun j => a0 (ix2 r j)) (fun k => a1 (ix2 r k)) (fun j k => a3 (ix2 j k)) (fun j => a4 (ix1 j)) (fun j => a5 (ix1 j))

/-- The new cell state at batch row `r`, column `q`. -/
def cellAt (r : Fin 8192) (q : Fin 1024) : EReal :=
  cell (gateRow a0 a1 a3 a4 a5 r) (fun q' => a2 (ix2 r q')) (fun q' => a6 (ix1 q')) (fun q' => a7 (ix1 q')) q

/-- The new hidden state at batch row `r`, column `q`. -/
def hiddenAt (r : Fin 8192) (q : Fin 1024) : EReal :=
  hidden (gateRow a0 a1 a3 a4 a5 r) (fun q' => a2 (ix2 r q')) (fun q' => a6 (ix1 q')) (fun q' => a7 (ix1 q')) q

/-- The new cell state as a whole array. -/
def cellArr : ShH.Idx → EReal := fun i =>
  cellAt a0 a1 a2 a3 a4 a5 a6 a7 ⟨(i 0).val, (i 0).isLt⟩ ⟨(i 1).val, (i 1).isLt⟩

/-- The new hidden state as a whole array. -/
def hiddenArr : ShH.Idx → EReal := fun i =>
  hiddenAt a0 a1 a2 a3 a4 a5 a6 a7 ⟨(i 0).val, (i 0).isLt⟩ ⟨(i 1).val, (i 1).isLt⟩

theorem cellArr_ix2 (r : Fin 8192) (q : Fin 1024) :
    cellArr a0 a1 a2 a3 a4 a5 a6 a7 (ix2 r q) = cellAt a0 a1 a2 a3 a4 a5 a6 a7 r q := rfl

theorem hiddenArr_ix2 (r : Fin 8192) (q : Fin 1024) :
    hiddenArr a0 a1 a2 a3 a4 a5 a6 a7 (ix2 r q) = hiddenAt a0 a1 a2 a3 a4 a5 a6 a7 r q := rfl

end arrays

end Cert.LstmCell

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.BodyRows.lean ====
/-
  The kernel body's arithmetic, read at one entry of a block.

  The body handles a block of 256 batch rows. Everything it computes for a row uses that row alone: the recurrent
  product contracts a row of the hidden-state block with the whole weight matrix, both layer norms reduce along a
  row, and the gates are cut out of a row by column ranges. So each stored entry (p, q) of a block is the row
  function of RowSpec applied to row p of the loaded blocks.

  The two layer norms are one text at two widths: `lnBlock` writes it once over any extents, the payloads are shown
  to be instances of it by unfolding, and `lnBlock_apply` reads it at an entry.
-/
import proofs.«410267_j28656021799664_3_alg».proof.Proof.Gen.KernelIdeal.Skeleton
import proofs.«410267_j28656021799664_3_alg».proof.Proof.RowSpec
import proofs.«410267_j28656021799664_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.LstmCell Cert.LibKeepdims

/-! ## The layer-norm text of the body, over any block extents -/

section text
variable {F : FTy → Type} [FloatOps F]

/-- The body's normalisation of an `[a, b]` block along its rows: row sums, a division by the width word `N`, the
    centred block, its squares' row sums, ε added, the reciprocal root broadcast back, gain and bias rows broadcast
    down the block. Operation for operation the printed sequence; the two reductions' side conditions are
    parameters. -/
def lnBlock {a b : ℕ} (N : BitVec 32) (X : FVec F ⟨2, ![a, b]⟩ .f32) (g bb : FVec F ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩)
    (hφ : FKind.Formats .f32) (hacc : (0x00000000#32 : BitVec FTy.f32.bits) = FKind.add.neutral .f32 hφ) :
    FVec F ⟨2, ![a, b]⟩ .f32 :=
  have s1 : FVec F ⟨1, ![a]⟩ .f32 := multiReduction .add [1] ⟨1, ![a]⟩ X 0x00000000#32 hr hφ hacc
  have mu : FVec F ⟨2, ![a, 1]⟩ .f32 := divf (shapeCast ⟨2, ![a, 1]⟩ s1 hc) (broadcast ⟨2, ![a, 1]⟩ (Scalar.ofBits .f32 N))
  have d : FVec F ⟨2, ![a, b]⟩ .f32 := subf X (broadcastTo ⟨2, ![a, b]⟩ mu hb)
  have s2 : FVec F ⟨1, ![a]⟩ .f32 := multiReduction .add [1] ⟨1, ![a]⟩ (mulf d d) 0x00000000#32 hr hφ hacc
  have var : FVec F ⟨2, ![a, 1]⟩ .f32 := divf (shapeCast ⟨2, ![a, 1]⟩ s2 hc) (broadcast ⟨2, ![a, 1]⟩ (Scalar.ofBits .f32 N))
  have d' : FVec F ⟨2, ![a, b]⟩ .f32 := subf X (broadcastTo ⟨2, ![a, b]⟩ mu hb)
  have r : FVec F ⟨2, ![a, 1]⟩ .f32 := rsqrt (addf var (broadcast ⟨2, ![a, 1]⟩ (Scalar.ofBits .f32 0x3727C5AC#32)))
  addf (mulf (mulf d' (broadcastTo ⟨2, ![a, b]⟩ r hb)) (broadcastTo ⟨2, ![a, b]⟩ g hg)) (broadcastTo ⟨2, ![a, b]⟩ bb hg)

/-- The gates' payload is the input block plus that text over the recurrent product, at width 4096. -/
theorem gates_eq (v0 : Vec F S256x1024 .f32) (v2 : Vec F S1024x4096 .bf16) (v5 v7 : Vec F S1x4096 .f32) (v31 : Vec F S256x4096 .f32) :
    k0_pay3 v0 v2 v5 v7 v31 = addf v31 (lnBlock 0x45800000#32
      (matmul dot_S256x1024_S1024x4096_S256x4096_1_0_0_1_n_n none (truncf .bf16 v0 bitsLt_bf16_f32)
        (shapeCast S1024x4096 v2 shapeCasts_S1024x4096_S1024x4096) (constant S256x4096 .f32 0x00000000#32))
      (shapeCast S1x4096 v5 shapeCasts_S1x4096_S1x4096) (shapeCast S1x4096 v7 shapeCasts_S1x4096_S1x4096)
      reduces_S256x4096_S256 shapeCasts_S256_S256x1 broadcasts_S256x1_S256x4096 broadcasts_S1x4096_S256x4096 (.inl rfl) rfl) := rfl

/-- The new cell state's payload is that text over forget · old cell + input · candidate, at width 1024. -/
theorem cell_eq (v37 v38 v39 : FVec F S256x1024 .f32) (v41 : Vec F S256x1024 .f32) (v45 v47 : Vec F S1x1024 .f32) :
    k0_pay1 v37 v38 v39 v41 v45 v47 = lnBlock 0x44800000#32 (addf (mulf v38 v41) (mulf v37 v39))
      (shapeCast S1x1024 v45 shapeCasts_S1x1024_S1x1024) (shapeCast S1x1024 v47 shapeCasts_S1x1024_S1x1024)
      reduces_S256x1024_S256 shapeCasts_S256_S256x1 broadcasts_S256x1_S256x1024 broadcasts_S1x1024_S256x1024 (.inl rfl) rfl := rfl

end text

/-! ## Read at an entry, on the extended reals -/

theorem rsqrt_apply {s : Shape} (x : FVec Ideal s .f32) (i : s.Idx) : rsqrt x i = Ideal.rsqrt (x i) := rfl
theorem tanh_apply {s : Shape} (x : FVec Ideal s .f32) (i : s.Idx) : tanh x i = Ideal.tanh (x i) := rfl
theorem logistic_apply {s : Shape} (x : FVec Ideal s .f32) (i : s.Idx) : logistic x i = Ideal.logistic (x i) := rfl

/-- The layer-norm text at entry `(p, j)` of a block is the layer norm of the block's row `p`, at column `j`, with the
    gain and bias rows read along their one row. -/
theorem lnBlock_apply {a b : ℕ} (N : BitVec 32) (X : FVec Ideal ⟨2, ![a, b]⟩ .f32) (g bb : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩)
    (hφ : FKind.Formats .f32) (hacc : (0x00000000#32 : BitVec FTy.f32.bits) = FKind.add.neutral .f32 hφ)
    (p : Fin a) (j : Fin b) :
    lnBlock N X g bb hr hc hb hg hφ hacc (ix2 p j)
      = lnorm (Ideal.ofBits .f32 N) (fun j' => X (ix2 p j')) (fun j' => g (ix2 (0 : Fin 1) j'))
          (fun j' => bb (ix2 (0 : Fin 1) j')) j := by
  unfold lnBlock lnorm variance mean
  -- a lane sum at row p is the sum over the row's columns, whatever block is summed
  have rowSum : ∀ Y : FVec Ideal ⟨2, ![a, b]⟩ .f32,
      multiReduction .add [1] ⟨1, ![a]⟩ Y 0x00000000#32 hr hφ hacc (ix1 p) = ∑ k : Fin b, Y (ix2 p k) :=
    fun Y => rowSum_apply Y _ hr hφ hacc p
  simp only [addf_apply, mulf_apply, subf_apply, divf_apply, rsqrt_apply, broadcast_apply, broadcastTo_a1_ab_apply,
    broadcastTo_1b_ab_apply, shapeCast_a_a1_apply, rowSum]
  rfl

/-! The recurrent product: entry `(p, j)` contracts row `p` of the left block with column `j` of the right one. -/

theorem mm_lhs_0 (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem mm_lhs_1 (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem mm_rhs_0 (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem mm_rhs_1 (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

theorem mm_apply (L : FVec Ideal S256x1024 .bf16) (R : FVec Ideal S1024x4096 .bf16) (p : Fin 256) (j : Fin 4096) :
    matmul dot_S256x1024_S1024x4096_S256x4096_1_0_0_1_n_n none L R (constant S256x4096 .f32 0x00000000#32) (ix2 p j)
      = ∑ k : Fin 1024, L (ix2 p k) * R (ix2 k j) := by
  refine (Ideal.matmul_constant_zero_apply dot_S256x1024_S1024x4096_S256x4096_1_0_0_1_n_n none L R (ix2 p j)).trans ?_
  rw [← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p j) ((ValueIdx.contrEquiv1 dot_S256x1024_S1024x4096_S256x4096_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S256x1024_S1024x4096_S256x4096_1_0_0_1_n_n.rhsIdx (ix2 p j) ((ValueIdx.contrEquiv1 dot_S256x1024_S1024x4096_S256x4096_1_0_0_1_n_n 1024 rfl rfl).symm k) = ix2 k j := funext fun a => Fin.ext (by
    match a with
    | ⟨0, _⟩ => exact (mm_rhs_0 _ _).trans hk
    | ⟨1, _⟩ => exact mm_rhs_1 _ _)
  rw [el, er]

/-! ## The payloads at an entry -/

section payloads

variable (P0 : Vec Ideal S256x1024 .f32) (P1 : Vec Ideal S1024x4096 .bf16) (P2 P3 : Vec Ideal S1x4096 .f32)
  (P4 : Vec Ideal S256x4096 .f32) (P5 : Vec Ideal S256x1024 .f32) (P6 P7 : Vec Ideal S1x1024 .f32)

/-- Row `p` of the loaded blocks as the row function's arguments: the input's row, the hidden state's row, the weight
    block read transposed (it arrives as the 1024 × 4096 transpose), the gain and bias rows. -/
abbrev gateOf (p : Fin 256) : Fin 4096 → EReal :=
  gate (fun j' => P4 (ix2 p j')) (fun k => P0 (ix2 p k)) (fun j' k => P1 (ix2 k j')) (fun j' => P2 (ix2 (0 : Fin 1) j'))
    (fun j' => P3 (ix2 (0 : Fin 1) j'))

/-- The gates' payload at `(p, j)`. -/
theorem gates_apply (p : Fin 256) (j : Fin 4096) : k0_pay3 P0 P1 P2 P3 P4 (ix2 p j) = gateOf P0 P1 P2 P3 P4 p j := by
  refine (congrFun (gates_eq P0 P1 P2 P3 P4) (ix2 p j)).trans ?_
  refine (congrArg (P4 (ix2 p j) + ·) (lnBlock_apply _ _ _ _ _ _ _ _ _ _ p j)).trans ?_
  unfold gateOf gate
  simp only [mm_apply, truncf_apply, shapeCast_self]

/-- The input gate at `(p, q)`: the logistic of the gate row's column `q`. -/
theorem inGate_apply (p : Fin 256) (q : Fin 1024) :
    k0_pay4 P0 P1 P2 P3 P4 (ix2 p q) = Ideal.logistic (gateOf P0 P1 P2 P3 P4 p (colI q)) :=
  congrArg Ideal.logistic ((slice2_axis1_apply 0 (k0_pay3 P0 P1 P2 P3 P4) slices_S256x4096_o0_0_S256x1024 p q (colI q)
    (by show q.val = 0 + q.val; omega)).trans (gates_apply P0 P1 P2 P3 P4 p (colI q)))

/-- The forget gate at `(p, q)`: the logistic of column `1024 + q`. -/
theorem forgetGate_apply (p : Fin 256) (q : Fin 1024) :
    k0_pay5 P0 P1 P2 P3 P4 (ix2 p q) = Ideal.logistic (gateOf P0 P1 P2 P3 P4 p (colF q)) :=
  congrArg Ideal.logistic ((slice2_axis1_apply 1024 (k0_pay3 P0 P1 P2 P3 P4) slices_S256x4096_o0_1024_S256x1024 p q (colF q)
    (by show q.val + 1024 = 1024 + q.val; omega)).trans (gates_apply P0 P1 P2 P3 P4 p (colF q)))

/-- The cell candidate at `(p, q)`: the hyperbolic tangent of column `2048 + q`. -/
theorem candidate_apply (p : Fin 256) (q : Fin 1024) :
    k0_pay6 P0 P1 P2 P3 P4 (ix2 p q) = Ideal.tanh (gateOf P0 P1 P2 P3 P4 p (colC q)) :=
  congrArg Ideal.tanh ((slice2_axis1_apply 2048 (k0_pay3 P0 P1 P2 P3 P4) slices_S256x4096_o0_2048_S256x1024 p q (colC q)
    (by show q.val + 2048 = 2048 + q.val; omega)).trans (gates_apply P0 P1 P2 P3 P4 p (colC q)))

/-- The output gate at `(p, q)`: the logistic of column `3072 + q`. -/
theorem outGate_apply (p : Fin 256) (q : Fin 1024) :
    k0_pay7 P0 P1 P2 P3 P4 (ix2 p q) = Ideal.logistic (gateOf P0 P1 P2 P3 P4 p (colO q)) :=
  congrArg Ideal.logistic ((slice2_axis1_apply 3072 (k0_pay3 P0 P1 P2 P3 P4) slices_S256x4096_o0_3072_S256x1024 p q (colO q)
    (by show q.val + 3072 = 3072 + q.val; omega)).trans (gates_apply P0 P1 P2 P3 P4 p (colO q)))

/-- The stored cell block at `(p, q)` is the new cell state of row `p`. -/
theorem cell_apply (p : Fin 256) (q : Fin 1024) :
    k0_pay1 (k0_pay4 P0 P1 P2 P3 P4) (k0_pay5 P0 P1 P2 P3 P4) (k0_pay6 P0 P1 P2 P3 P4) P5 P6 P7 (ix2 p q)
      = cell (gateOf P0 P1 P2 P3 P4 p) (fun q' => P5 (ix2 p q')) (fun q' => P6 (ix2 (0 : Fin 1) q'))
          (fun q' => P7 (ix2 (0 : Fin 1) q')) q := by
  refine (congrFun (cell_eq (k0_pay4 P0 P1 P2 P3 P4) (k0_pay5 P0 P1 P2 P3 P4) (k0_pay6 P0 P1 P2 P3 P4) P5 P6 P7) (ix2 p q)).trans ?_
  refine (lnBlock_apply _ _ _ _ _ _ _ _ _ _ p q).trans ?_
  unfold cell
  have hrow : (fun q' => (addf (mulf (k0_pay5 P0 P1 P2 P3 P4) P5) (mulf (k0_pay4 P0 P1 P2 P3 P4) (k0_pay6 P0 P1 P2 P3 P4))) (ix2 p q'))
      = preCell (gateOf P0 P1 P2 P3 P4 p) (fun q' => P5 (ix2 p q')) := funext fun q' => by
    show k0_pay5 P0 P1 P2 P3 P4 (ix2 p q') * P5 (ix2 p q') + k0_pay4 P0 P1 P2 P3 P4 (ix2 p q') * k0_pay6 P0 P1 P2 P3 P4 (ix2 p q') = _
    rw [forgetGate_apply, inGate_apply, candidate_apply]
    rfl
  rw [hrow]
  simp only [shapeCast_self]

/-- The stored hidden block at `(p, q)` is the new hidden state of row `p`. -/
theorem hidden_apply (p : Fin 256) (q : Fin 1024) :
    k0_pay2 (k0_pay4 P0 P1 P2 P3 P4) (k0_pay5 P0 P1 P2 P3 P4) (k0_pay6 P0 P1 P2 P3 P4) (k0_pay7 P0 P1 P2 P3 P4) P5 P6 P7 (ix2 p q)
      = hidden (gateOf P0 P1 P2 P3 P4 p) (fun q' => P5 (ix2 p q')) (fun q' => P6 (ix2 (0 : Fin 1) q'))
          (fun q' => P7 (ix2 (0 : Fin 1) q')) q := by
  show k0_pay7 P0 P1 P2 P3 P4 (ix2 p q) * Ideal.tanh (k0_pay1 (k0_pay4 P0 P1 P2 P3 P4) (k0_pay5 P0 P1 P2 P3 P4) (k0_pay6 P0 P1 P2 P3 P4) P5 P6 P7 (ix2 p q)) = _
  rw [outGate_apply, cell_apply]
  rfl

end payloads

end Cert.KernelIdeal.Body

end
-- ==== Proof.Blocks.lean ====
/-
  From blocks to arrays: what the kernel's run leaves in its two result arrays.

  The grid has 32 points; point t stages rows 256·t … 256·t + 255 of the input, of the hidden state and of the cell
  state, the whole transposed weight matrix and the four gain and bias rows, and writes back rows 256·t … 256·t + 255
  of the two results. Entry (p, q) of a written block is the row function of row p of the staged blocks (BodyRows),
  and row p of a staged block is row 256·t + p of its array, so a written block is the block of the whole-array
  functions `hiddenArr` and `cellArr` of the arguments. The 32 blocks cover the result arrays, so the arrays end
  holding those functions.
-/
import proofs.«410267_j28656021799664_3_alg».proof.Proof.Gen.KernelIdeal.Value
import proofs.«410267_j28656021799664_3_alg».proof.Proof.BodyRows
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.LstmCell

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 32 points: the three batch-tiled inputs and the two results move down
    their arrays one block per point; the weights and the four rows stay at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The batch row that row `p` of point `t`'s blocks is. -/
def rowOf (t : Fin cfg0.N) (p : Fin 256) : Fin 8192 :=
  ⟨t.val * 256 + p.val, by have ht : t.val < 32 := lt_of_lt_of_eq t.isLt N_0; have := p.isLt; omega⟩

/-! ## What the region finds in the arrays the host operations wrote -/

/-- The weights as the region finds them: the transpose, its change of float format the identity here. -/
theorem weights_found (c : Dev nD) :
    (V m c main_v1 : S1024x4096.Idx → Ideal .bf16)
      = truncf (F := Ideal) .bf16 (transpose S1024x4096 [1, 0] (m ((c : Thread nD τ).loc main_arg3)) transposes_S4096x1024_S1024x4096_1_0) bitsLt_bf16_f32 := by
  dsimp only [Gen.V, Gen.hostOps0]; after_results

theorem gainH_found (c : Dev nD) :
    (V m c main_v2 : S1x4096.Idx → Ideal .f32) = shapeCast S1x4096 (m ((c : Thread nD τ).loc main_arg4)) shapeCasts_S4096_S1x4096 := by
  dsimp only [Gen.V, Gen.hostOps0]; after_results; rfl

theorem biasH_found (c : Dev nD) :
    (V m c main_v3 : S1x4096.Idx → Ideal .f32) = shapeCast S1x4096 (m ((c : Thread nD τ).loc main_arg5)) shapeCasts_S4096_S1x4096 := by
  dsimp only [Gen.V, Gen.hostOps0]; after_results; rfl

theorem gainC_found (c : Dev nD) :
    (V m c main_v4 : S1x1024.Idx → Ideal .f32) = shapeCast S1x1024 (m ((c : Thread nD τ).loc main_arg6)) shapeCasts_S1024_S1x1024 := by
  dsimp only [Gen.V, Gen.hostOps0]; after_results; rfl

theorem biasC_found (c : Dev nD) :
    (V m c main_v5 : S1x1024.Idx → Ideal .f32) = shapeCast S1x1024 (m ((c : Thread nD τ).loc main_arg7)) shapeCasts_S1024_S1x1024 := by
  dsimp only [Gen.V, Gen.hostOps0]; after_results; rfl

/-! ## A staged block's row is a row of its array -/

section rows
variable (c : Dev nD) (t : Fin cfg0.N)

/-- Row `p` of the input block is batch row `256·t + p` of the input. -/
theorem inputRow (p : Fin 256) :
    (fun j : Fin 4096 => iblk m c 0 t (ix2 p j)) = fun j => m ((c : Thread nD τ).loc main_arg0) (ix2 (rowOf t p) j) := by
  obtain ⟨e0, e1, -⟩ := index_facts t
  funext j
  show V m c main_arg0 (((cfg0.win 0).blk t).view.emb (ix2 p j)) = _
  rw [V_main_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 4096 + 1 * j.val = j.val; omega

/-- Row `p` of the hidden-state block is batch row `256·t + p` of the hidden state. -/
theorem hiddenRow (p : Fin 256) :
    (fun k : Fin 1024 => iblk m c 1 t (ix2 p k)) = fun k => m ((c : Thread nD τ).loc main_arg1) (ix2 (rowOf t p) k) := by
  obtain ⟨-, -, e0, e1, -⟩ := index_facts t
  funext k
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- Row `p` of the cell-state block is batch row `256·t + p` of the cell state. -/
theorem cellRow (p : Fin 256) :
    (fun q : Fin 1024 => iblk m c 2 t (ix2 p q)) = fun q => m ((c : Thread nD τ).loc main_arg2) (ix2 (rowOf t p) q) := by
  obtain ⟨-, -, -, -, e0, e1, -⟩ := index_facts t
  funext q
  show V m c main_arg2 (((cfg0.win 2).blk t).view.emb (ix2 p q)) = _
  rw [V_main_arg2]
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * q.val = q.val; omega

/-- The staged weights, read transposed, are the weight matrix. -/
theorem weightRows :
    (fun (j : Fin 4096) (k : Fin 1024) => iblk m c 3 t (ix2 k j)) = fun j k => m ((c : Thread nD τ).loc main_arg3) (ix2 j k) := by
  obtain ⟨-, -, -, -, -, -, e0, e1, -⟩ := index_facts t
  funext j k
  show (V m c main_v1 : S1024x4096.Idx → Ideal .bf16) (((cfg0.win 3).blk t).view.emb (ix2 k j)) = _
  have hemb : ((cfg0.win 3).blk t).view.emb (ix2 k j) = ix2 k j := funext fun a => Fin.ext (by
    match a with
    | ⟨0, _⟩ => show win0_3.index t (0 : Fin 2) * 1024 + 1 * k.val = k.val; omega
    | ⟨1, _⟩ => show win0_3.index t (1 : Fin 2) * 4096 + 1 * j.val = j.val; omega)
  refine (congrArg (V m c main_v1 : S1024x4096.Idx → Ideal .bf16) hemb).trans ?_
  rw [weights_found]
  exact transpose_ix2_apply (m ((c : Thread nD τ).loc main_arg3)) transposes_S4096x1024_S1024x4096_1_0 k j

/-- The staged gain row of the gates' layer norm is the gain vector. -/
theorem gainHRow : (fun j : Fin 4096 => iblk m c 4 t (ix2 (0 : Fin 1) j)) = fun j => m ((c : Thread nD τ).loc main_arg4) (ix1 j) := by
  obtain ⟨-, -, -, -, -, -, -, -, e0, e1, -⟩ := index_facts t
  funext j
  show (V m c main_v2 : S1x4096.Idx → Ideal .f32) (((cfg0.win 4).blk t).view.emb (ix2 (0 : Fin 1) j)) = _
  have hemb : ((cfg0.win 4).blk t).view.emb (ix2 (0 : Fin 1) j) = ix2 (0 : Fin 1) j := funext fun a => Fin.ext (by
    match a with
    | ⟨0, _⟩ => show win0_4.index t (0 : Fin 2) * 1 + 1 * 0 = 0; omega
    | ⟨1, _⟩ => show win0_4.index t (1 : Fin 2) * 4096 + 1 * j.val = j.val; omega)
  refine (congrArg (V m c main_v2 : S1x4096.Idx → Ideal .f32) hemb).trans ?_
  rw [gainH_found]
  exact shapeCast_a_1a_apply _ _ 0 j

/-- The staged bias row of the gates' layer norm is the bias vector. -/
theorem biasHRow : (fun j : Fin 4096 => iblk m c 5 t (ix2 (0 : Fin 1) j)) = fun j => m ((c : Thread nD τ).loc main_arg5) (ix1 j) := by
  obtain ⟨-, -, -, -, -, -, -, -, -, -, e0, e1, -⟩ := index_facts t
  funext j
  show (V m c main_v3 : S1x4096.Idx → Ideal .f32) (((cfg0.win 5).blk t).view.emb (ix2 (0 : Fin 1) j)) = _
  have hemb : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 4096 + 1 * j.val = j.val; omega)
  refine (congrArg (V m c main_v3 : S1x4096.Idx → Ideal .f32) hemb).trans ?_
  rw [biasH_found]
  exact shapeCast_a_1a_apply _ _ 0 j

/-- The staged gain row of the cell's layer norm is the gain vector. -/
theorem gainCRow : (fun q : Fin 1024 => iblk m c 6 t (ix2 (0 : Fin 1) q)) = fun q => m ((c : Thread nD τ).loc main_arg6) (ix1 q) := by
  obtain ⟨-, -, -, -, -, -, -, -, -, -, -, -, e0, e1, -⟩ := index_facts t
  funext q
  show (V m c main_v4 : S1x1024.Idx → Ideal .f32) (((cfg0.win 6).blk t).view.emb (ix2 (0 : Fin 1) q)) = _
  have hemb : ((cfg0.win 6).blk t).view.emb (ix2 (0 : Fin 1) q) = ix2 (0 : Fin 1) q := funext fun a => Fin.ext (by
    match a with
    | ⟨0, _⟩ => show win0_6.index t (0 : Fin 2) * 1 + 1 * 0 = 0; omega
    | ⟨1, _⟩ => show win0_6.index t (1 : Fin 2) * 1024 + 1 * q.val = q.val; omega)
  refine (congrArg (V m c main_v4 : S1x1024.Idx → Ideal .f32) hemb).trans ?_
  rw [gainC_found]
  exact shapeCast_a_1a_apply _ _ 0 q

/-- The staged bias row of the cell's layer norm is the bias vector. -/
theorem biasCRow : (fun q : Fin 1024 => iblk m c 7 t (ix2 (0 : Fin 1) q)) = fun q => m ((c : Thread nD τ).loc main_arg7) (ix1 q) := by
  obtain ⟨-, -, -, -, -, -, -, -, -, -, -, -, -, -, e0, e1, -⟩ := index_facts t
  funext q
  show (V m c main_v5 : S1x1024.Idx → Ideal .f32) (((cfg0.win 7).blk t).view.emb (ix2 (0 : Fin 1) q)) = _
  have hemb : ((cfg0.win 7).blk t).view.emb (ix2 (0 : Fin 1) q) = ix2 (0 : Fin 1) q := funext fun a => Fin.ext (by
    match a with
    | ⟨0, _⟩ => show win0_7.index t (0 : Fin 2) * 1 + 1 * 0 = 0; omega
    | ⟨1, _⟩ => show win0_7.index t (1 : Fin 2) * 1024 + 1 * q.val = q.val; omega)
  refine (congrArg (V m c main_v5 : S1x1024.Idx → Ideal .f32) hemb).trans ?_
  rw [biasC_found]
  exact shapeCast_a_1a_apply _ _ 0 q

/-- So row `p` of the staged blocks gives the gates of batch row `256·t + p`. -/
theorem gateOf_eq (p : Fin 256) :
    Body.gateOf (iblk m c 1 t) (iblk m c 3 t) (iblk m c 4 t) (iblk m c 5 t) (iblk m c 0 t) p
      = gateRow (m ((c : Thread nD τ).loc main_arg0)) (m ((c : Thread nD τ).loc main_arg1)) (m ((c : Thread nD τ).loc main_arg3))
          (m ((c : Thread nD τ).loc main_arg4)) (m ((c : Thread nD τ).loc main_arg5)) (rowOf t p) := by
  unfold Body.gateOf gateRow
  rw [inputRow m c t p, hiddenRow m c t p, weightRows m c t, gainHRow m c t, biasHRow m c t]

end rows

/-! ## What each point writes back, the cover, and the arrays after the run

The two results are tiled alike (256 rows a point, the full 1024 columns), so each step below is stated once for the
cell state (result 1, window 9) and once for the hidden state (result 0, window 8). -/

/-! ### The new cell state: window 9 -/

/-- The array index under entry `(p, q)` of point `t`'s cell block: row `256·t + p`, column `q`. -/
theorem cellEmb (t : Fin cfg0.N) (p : Fin 256) (q : Fin 1024) :
    ((cfg0.win 9).blk t).view.emb (ix2 p q) = ix2 (rowOf t p) q := by
  obtain ⟨-, -, -, -, -, -, -, -, -, -, -, -, -, -, -, -, -, -, e0, e1⟩ := index_facts t
  funext a; apply Fin.ext
  match a with
  | ⟨0, _⟩ => show win0_9.index t (0 : Fin 2) * 256 + 1 * p.val = t.val * 256 + p.val; omega
  | ⟨1, _⟩ => show win0_9.index t (1 : Fin 2) * 1024 + 1 * q.val = q.val; omega

/-- What point `t` writes back to the cell array is block `t` of `cellArr` of the argument arrays: the stored entry is
    the cell function of row `p` of the staged blocks, and those rows are rows `256·t + p` of the arrays. -/
theorem cellFlushed (c : Dev nD) (t : Fin cfg0.N) :
    (dats m 0 c).flushed 9 t = ((cfg0.win 9).blk t).view.read (Elt Ideal)
      (cellArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) := by
  rw [Value.flushed9]
  unfold out0_9
  rw [View.canon_unit_zero zero_offsets]
  simp only [View.ld_unit_zero (S := S256x1024) zero_offsets, View.ld_unit_zero (S := S1024x4096) zero_offsets,
    View.ld_unit_zero (S := S1x4096) zero_offsets, View.ld_unit_zero (S := S256x4096) zero_offsets,
    View.ld_unit_zero (S := S1x1024) zero_offsets]
  funext y
  obtain ⟨p, q, rfl⟩ : ∃ (p : Fin 256) (q : Fin 1024), y = ix2 p q := ⟨y 0, y 1, eq_ix2 y⟩
  refine (Body.cell_apply (iblk m c 1 t) (iblk m c 3 t) (iblk m c 4 t) (iblk m c 5 t) (iblk m c 0 t) (iblk m c 2 t)
    (iblk m c 6 t) (iblk m c 7 t) p q).trans ?_
  show _ = cellArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (((cfg0.win 9).blk t).view.emb (ix2 p q))
  rw [cellEmb t p q, cellArr_ix2, gateOf_eq m c t p, cellRow m c t p, gainCRow m c t, biasCRow m c t]
  rfl

/-- An index of the cell array is in point `t`'s block iff each coordinate is in the block's range on its axis. -/
theorem cellMem (t : Fin cfg0.N) (i : S8192x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v6_1).slice (win0_9.rect t)).set ↔ _
  rw [View.set_slice_whole, Rect.mem_set_unit]
  exact Iff.rfl

/-- Every index of the cell array lies in the block of the point its row falls in, `row / 256`. -/
theorem cellCover (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 32 := N_0
  have ht : (i 0).val / 256 < cfg0.N := by rw [hN]; omega
  obtain ⟨-, -, -, -, -, -, -, -, -, -, -, -, -, -, -, -, -, -, e0, e1⟩ := index_facts ⟨(i 0).val / 256, ht⟩
  refine ⟨⟨(i 0).val / 256, ht⟩, flush0_9 _, ?_⟩
  rw [cellMem]
  intro a
  match a with
  | ⟨0, _⟩ =>
    show win0_9.index ⟨(i 0).val / 256, ht⟩ (0 : Fin 2) * 256 ≤ (i 0).val
      ∧ (i 0).val < win0_9.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_9.index ⟨(i 0).val / 256, ht⟩ (1 : Fin 2) * 1024 ≤ (i 1).val
      ∧ (i 1).val < win0_9.index ⟨(i 0).val / 256, ht⟩ (1 : Fin 2) * 1024 + 1024
    rw [e1]
    omega

/-- The cell array after the run is `cellArr` of the argument arrays. -/
theorem cellFinal (c : Dev nD) :
    (dats m 0 c).arrAt 9 cfg0.N
      = cellArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (dats m 0 c).arrAt_eq_of_cover 9 _ (fun t _ => cellFlushed m c t) cellCover

/-! ### The new hidden state: window 8 -/

/-- The array index under entry `(p, q)` of point `t`'s hidden block: row `256·t + p`, column `q`. -/
theorem hiddenEmb (t : Fin cfg0.N) (p : Fin 256) (q : Fin 1024) :
    ((cfg0.win 8).blk t).view.emb (ix2 p q) = ix2 (rowOf t p) q := by
  obtain ⟨-, -, -, -, -, -, -, -, -, -, -, -, -, -, -, -, e0, e1, -⟩ := index_facts t
  funext a; apply Fin.ext
  match a with
  | ⟨0, _⟩ => show win0_8.index t (0 : Fin 2) * 256 + 1 * p.val = t.val * 256 + p.val; omega
  | ⟨1, _⟩ => show win0_8.index t (1 : Fin 2) * 1024 + 1 * q.val = q.val; omega

/-- What point `t` writes back to the hidden array is block `t` of `hiddenArr` of the argument arrays. -/
theorem hiddenFlushed (c : Dev nD) (t : Fin cfg0.N) :
    (dats m 0 c).flushed 8 t = ((cfg0.win 8).blk t).view.read (Elt Ideal)
      (hiddenArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7))) := by
  rw [Value.flushed8]
  unfold out0_8
  rw [View.canon_unit_zero zero_offsets]
  simp only [View.ld_unit_zero (S := S256x1024) zero_offsets, View.ld_unit_zero (S := S1024x4096) zero_offsets,
    View.ld_unit_zero (S := S1x4096) zero_offsets, View.ld_unit_zero (S := S256x4096) zero_offsets,
    View.ld_unit_zero (S := S1x1024) zero_offsets]
  funext y
  obtain ⟨p, q, rfl⟩ : ∃ (p : Fin 256) (q : Fin 1024), y = ix2 p q := ⟨y 0, y 1, eq_ix2 y⟩
  refine (Body.hidden_apply (iblk m c 1 t) (iblk m c 3 t) (iblk m c 4 t) (iblk m c 5 t) (iblk m c 0 t) (iblk m c 2 t)
    (iblk m c 6 t) (iblk m c 7 t) p q).trans ?_
  show _ = hiddenArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (((cfg0.win 8).blk t).view.emb (ix2 p q))
  rw [hiddenEmb t p q, hiddenArr_ix2, gateOf_eq m c t p, cellRow m c t p, gainCRow m c t, biasCRow m c t]
  rfl

/-- An index of the hidden array is in point `t`'s block iff each coordinate is in the block's range on its axis. -/
theorem hiddenMem (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v6_0).slice (win0_8.rect t)).set ↔ _
  rw [View.set_slice_whole, Rect.mem_set_unit]
  exact Iff.rfl

/-- Every index of the hidden array lies in the block of the point its row falls in. -/
theorem hiddenCover (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 32 := N_0
  have ht : (i 0).val / 256 < cfg0.N := by rw [hN]; omega
  obtain ⟨-, -, -, -, -, -, -, -, -, -, -, -, -, -, -, -, e0, e1, -⟩ := index_facts ⟨(i 0).val / 256, ht⟩
  refine ⟨⟨(i 0).val / 256, ht⟩, flush0_8 _, ?_⟩
  rw [hiddenMem]
  intro a
  match a with
  | ⟨0, _⟩ =>
    show win0_8.index ⟨(i 0).val / 256, ht⟩ (0 : Fin 2) * 256 ≤ (i 0).val
      ∧ (i 0).val < win0_8.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win0_8.index ⟨(i 0).val / 256, ht⟩ (1 : Fin 2) * 1024 ≤ (i 1).val
      ∧ (i 1).val < win0_8.index ⟨(i 0).val / 256, ht⟩ (1 : Fin 2) * 1024 + 1024
    rw [e1]
    omega

/-- The hidden array after the run is `hiddenArr` of the argument arrays. -/
theorem hiddenFinal (c : Dev nD) :
    (dats m 0 c).arrAt 8 cfg0.N
      = hiddenArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (dats m 0 c).arrAt_eq_of_cover 8 _ (fun t _ => hiddenFlushed m c t) hiddenCover

/-! ## The run, read -/

/-- The kernel's run re-posted: the two result arrays at their functions of the arguments, the arguments unchanged. -/
theorem run : θ_run defs (onTc (τ := τ) (main (F := Ideal))) ⟨m, fun _ => 0, ρ⟩ fun r => ∀ c : Dev nD,
      r.2.mem ((c : Thread nD τ).loc main_v6_0)
        = hiddenArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_v6_1)
        = cellArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (hiddenFinal m c), (h c).2.1.trans (cellFinal m c), (h c).2.2⟩)
    (Value.run_blocks m ρ)

end Cert.KernelIdeal.Blocks

end
-- ==== Proof.RefRows.lean ====
/-
  The reference's stages, read at one entry of a result.

  The reference works on whole arrays, but every operation it applies acts row by row: the matrix product contracts
  a row of the hidden state with the transposed weights, both layer norms reduce along the feature axis and broadcast
  the statistics back, the gates are column ranges. So entry (r, q) of each result is the row function of RowSpec
  applied to row r of the arguments.

  The two layer norms are one sequence of host operations at two widths: `lnHost` writes it once over any extents,
  the two stage chains are shown to be instances of it by unfolding, and `lnHost_apply` reads it at an entry. The
  logistic gates arrive spelt out as 1 / (1 + e^(−x)), which is the logistic function's definition on the extended
  reals.
-/
import proofs.«410267_j28656021799664_3_alg».proof.Proof.Gen.ReferenceIdeal.Read
import proofs.«410267_j28656021799664_3_alg».proof.Proof.RowSpec
import proofs.«410267_j28656021799664_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Read Idealize.ShloMosaic Idealize.ShloMosaic.ValueIdx
open Cert.LstmCell Cert.LibKeepdims

/-! ## The layer-norm sequence of the host program, over any extents -/

section text
variable {F : FTy → Type} [FloatOps F]

/-- The host's normalisation of an `[a, b]` array along its rows: the row sums from a zero scalar, placed on a column
    and divided by the width word `N`, the centred array, its squares' row sums likewise, ε added, the reciprocal
    root broadcast back, the gain and bias vectors placed on a row and broadcast down. Operation for operation the
    printed sequence. -/
def lnHost {a b : ℕ} (N : BitVec 32) (X : FVec F ⟨2, ![a, b]⟩ .f32) (g bb : FVec F ⟨1, ![b]⟩ .f32)
    (hred : (⟨2, ![a, b]⟩ : Shape).ReducesTo [1] ⟨1, ![a]⟩) (hS : 0 < (⟨0, ![]⟩ : Shape).numel)
    (h1 : (⟨1, ![a]⟩ : Shape).BroadcastsInDim ⟨2, ![a, 1]⟩ (![0] : Fin 1 → Fin (⟨2, ![a, 1]⟩ : Shape).rank))
    (h0 : (⟨0, ![]⟩ : Shape).BroadcastsInDim ⟨2, ![a, 1]⟩ (![] : Fin 0 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (h3 : (⟨1, ![b]⟩ : Shape).BroadcastsInDim ⟨2, ![1, b]⟩ (![1] : Fin 1 → Fin (⟨2, ![1, b]⟩ : Shape).rank))
    (h4 : (⟨2, ![1, b]⟩ : Shape).BroadcastsInDim ⟨2, ![a, b]⟩ (![0, 1] : Fin 2 → Fin (⟨2, ![a, b]⟩ : Shape).rank)) :
    FVec F ⟨2, ![a, b]⟩ .f32 :=
  have zero : FVec F ⟨0, ![]⟩ .f32 := constant ⟨0, ![]⟩ .f32 0x00000000#32
  have width : FVec F ⟨2, ![a, 1]⟩ .f32 := broadcastInDim ⟨2, ![a, 1]⟩ ![] h0 (constant ⟨0, ![]⟩ .f32 N)
  have mu : FVec F ⟨2, ![a, 1]⟩ .f32 := Host.divf (broadcastInDim ⟨2, ![a, 1]⟩ ![0] h1 (Host.reduceAdd X zero hred hS)) width
  have d : FVec F ⟨2, ![a, b]⟩ .f32 := subf X (broadcastInDim ⟨2, ![a, b]⟩ ![0, 1] h2 mu)
  have var : FVec F ⟨2, ![a, 1]⟩ .f32 :=
    Host.divf (broadcastInDim ⟨2, ![a, 1]⟩ ![0] h1 (Host.reduceAdd (mulf d d) zero hred hS)) width
  have r : FVec F ⟨2, ![a, 1]⟩ .f32 :=
    Host.rsqrt (addf var (broadcastInDim ⟨2, ![a, 1]⟩ ![] h0 (constant ⟨0, ![]⟩ .f32 0x3727C5AC#32)))
  addf (mulf (mulf d (broadcastInDim ⟨2, ![a, b]⟩ ![0, 1] h2 r))
      (broadcastInDim ⟨2, ![a, b]⟩ ![0, 1] h4 (broadcastInDim ⟨2, ![1, b]⟩ ![1] h3 g)))
    (broadcastInDim ⟨2, ![a, b]⟩ ![0, 1] h4 (broadcastInDim ⟨2, ![1, b]⟩ ![1] h3 bb))

/-- The normalised recurrent product is that sequence over the matrix product, at width 4096. -/
theorem gatesLn_eq (x1 : (⟨S8192x1024, .f32⟩ : BufTy).Contents (Elt F)) (x3 : (⟨S4096x1024, .f32⟩ : BufTy).Contents (Elt F))
    (x4 x5 : (⟨S4096, .f32⟩ : BufTy).Contents (Elt F)) :
    val_main_v25 (F := F) x1 x3 x4 x5 = lnHost 0x45800000#32 (val_main_v1 (F := F) x1 x3) x4 x5
      reducesTo_S8192x4096_S8192_d1 h_S_ bcast_S8192_S8192x1_0 bcast_S_S8192x1 bcast_S8192x1_S8192x4096_0_1
      bcast_S4096_S1x4096_1 bcast_S1x4096_S8192x4096_0_1 := rfl

/-- The new cell state is that sequence over forget · old cell + input · candidate, at width 1024. -/
theorem cellLn_eq (x0 : (⟨S8192x4096, .f32⟩ : BufTy).Contents (Elt F)) (x1 x2 : (⟨S8192x1024, .f32⟩ : BufTy).Contents (Elt F))
    (x3 : (⟨S4096x1024, .f32⟩ : BufTy).Contents (Elt F)) (x4 x5 : (⟨S4096, .f32⟩ : BufTy).Contents (Elt F))
    (x6 x7 : (⟨S1024, .f32⟩ : BufTy).Contents (Elt F)) :
    val_main_v76 (F := F) x0 x1 x2 x3 x4 x5 x6 x7 = lnHost 0x44800000#32 (val_main_v52 (F := F) x0 x1 x2 x3 x4 x5) x6 x7
      reducesTo_S8192x1024_S8192_d1 h_S_ bcast_S8192_S8192x1_0 bcast_S_S8192x1 bcast_S8192x1_S8192x1024_0_1
      bcast_S1024_S1x1024_1 bcast_S1x1024_S8192x1024_0_1 := rfl

end text

/-! ## Read at an entry, on the extended reals -/

theorem hostDivf_apply {s : Shape} (x y : FVec Ideal s .f32) (i : s.Idx) : Host.divf x y i = Ideal.div (x i) (y i) := rfl
theorem hostRsqrt_apply {s : Shape} (x : FVec Ideal s .f32) (i : s.Idx) : Host.rsqrt x i = Ideal.rsqrt (x i) := rfl

/-- The host's layer-norm sequence at entry `(r, j)` is the layer norm of the array's row `r`, at column `j`. The
    host's sums start from the zero scalar, which adds nothing. -/
theorem lnHost_apply {a b : ℕ} (N : BitVec 32) (X : FVec Ideal ⟨2, ![a, b]⟩ .f32) (g bb : FVec Ideal ⟨1, ![b]⟩ .f32)
    (hred : (⟨2, ![a, b]⟩ : Shape).ReducesTo [1] ⟨1, ![a]⟩) (hS : 0 < (⟨0, ![]⟩ : Shape).numel)
    (h1 : (⟨1, ![a]⟩ : Shape).BroadcastsInDim ⟨2, ![a, 1]⟩ (![0] : Fin 1 → Fin (⟨2, ![a, 1]⟩ : Shape).rank))
    (h0 : (⟨0, ![]⟩ : Shape).BroadcastsInDim ⟨2, ![a, 1]⟩ (![] : Fin 0 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (h3 : (⟨1, ![b]⟩ : Shape).BroadcastsInDim ⟨2, ![1, b]⟩ (![1] : Fin 1 → Fin (⟨2, ![1, b]⟩ : Shape).rank))
    (h4 : (⟨2, ![1, b]⟩ : Shape).BroadcastsInDim ⟨2, ![a, b]⟩ (![0, 1] : Fin 2 → Fin (⟨2, ![a, b]⟩ : Shape).rank))
    (hR : (⟨2, ![a, b]⟩ : Shape).Reduces [1] ⟨1, ![a]⟩) (r : Fin a) (j : Fin b) :
    lnHost N X g bb hred hS h1 h0 h2 h3 h4 (ix2 r j)
      = lnorm (Ideal.ofBits .f32 N) (fun j' => X (ix2 r j')) (fun j' => g (ix1 j')) (fun j' => bb (ix1 j')) j := by
  unfold lnHost lnorm variance mean
  have rowSum : ∀ (Y : FVec Ideal ⟨2, ![a, b]⟩ .f32) (init : (⟨0, ![]⟩ : Shape).Idx → Ideal .f32),
      Host.reduceAdd Y init hred hS (ix1 r) = init ix0 + ∑ k : Fin b, Y (ix2 r k) :=
    fun Y init => hostRowSum_apply Y init hred hR hS r
  -- the five placements and broadcasts, at this row
  have bScalar : ∀ (c : (⟨0, ![]⟩ : Shape).Idx → Ideal .f32) (i : (⟨2, ![a, 1]⟩ : Shape).Idx),
      broadcastInDim ⟨2, ![a, 1]⟩ ![] h0 c i = c ix0 := fun c i => broadcastInDim_scalar_apply c h0 i
  have bCol : ∀ (x : (⟨1, ![a]⟩ : Shape).Idx → Ideal .f32) (u : Fin 1),
      broadcastInDim ⟨2, ![a, 1]⟩ ![0] h1 x (ix2 r u) = x (ix1 r) := fun x u => broadcastInDim_a_a1_apply x h1 r u
  have bAcross : ∀ (x : (⟨2, ![a, 1]⟩ : Shape).Idx → Ideal .f32) (j' : Fin b),
      broadcastInDim ⟨2, ![a, b]⟩ ![0, 1] h2 x (ix2 r j') = x (ix2 r (0 : Fin 1)) :=
    fun x j' => broadcastInDim_a1_ab_apply x h2 r j'
  have bRow : ∀ (x : (⟨1, ![b]⟩ : Shape).Idx → Ideal .f32) (u : Fin 1) (j' : Fin b),
      broadcastInDim ⟨2, ![1, b]⟩ ![1] h3 x (ix2 u j') = x (ix1 j') := fun x u j' => broadcastInDim_b_1b_apply x h3 u j'
  have bDown : ∀ (x : (⟨2, ![1, b]⟩ : Shape).Idx → Ideal .f32) (j' : Fin b),
      broadcastInDim ⟨2, ![a, b]⟩ ![0, 1] h4 x (ix2 r j') = x (ix2 (0 : Fin 1) j') :=
    fun x j' => broadcastInDim_1b_ab_apply x h4 r j'
  simp only [addf_apply, mulf_apply, subf_apply, hostDivf_apply, hostRsqrt_apply, bScalar, bCol, bAcross, bRow, bDown,
    rowSum, constant_apply, Ideal.ofBits_zero_f32, zero_add]

/-! ## The stages at an entry -/

section stages

variable (x0 : (⟨S8192x4096, .f32⟩ : BufTy).Contents (Elt Ideal)) (x1 x2 : (⟨S8192x1024, .f32⟩ : BufTy).Contents (Elt Ideal))
  (x3 : (⟨S4096x1024, .f32⟩ : BufTy).Contents (Elt Ideal)) (x4 x5 : (⟨S4096, .f32⟩ : BufTy).Contents (Elt Ideal))
  (x6 x7 : (⟨S1024, .f32⟩ : BufTy).Contents (Elt Ideal))

/-- The recurrent product at `(r, j)`: row `r` of the hidden state against row `j` of the weights (the program
    transposes the weights first and contracts with the transpose's column). -/
theorem product_apply (r : Fin 8192) (j : Fin 4096) :
    val_main_v1 (F := Ideal) x1 x3 (ix2 r j) = ∑ k : Fin 1024, x1 (ix2 r k) * x3 (ix2 j k) := by
  rw [val_main_v1_apply]
  refine Finset.sum_congr rfl fun k _ => ?_
  rw [val_main_v0_apply]
  exact congrArg₂ (· * ·)
    (congrArg x1 (funext fun a => Fin.ext (by match a with | ⟨0, _⟩ => rfl | ⟨1, _⟩ => rfl)))
    (congrArg x3 (funext fun a => Fin.ext (by match a with | ⟨0, _⟩ => rfl | ⟨1, _⟩ => rfl)))

/-- The gates' pre-activations at `(r, j)`. -/
theorem gates_apply (r : Fin 8192) (j : Fin 4096) :
    val_main_v26 (F := Ideal) x0 x1 x3 x4 x5 (ix2 r j) = gateRow x0 x1 x3 x4 x5 r j := by
  show x0 (ix2 r j) + val_main_v25 (F := Ideal) x1 x3 x4 x5 (ix2 r j) = _
  rw [gatesLn_eq]
  refine (congrArg (x0 (ix2 r j) + ·) (lnHost_apply _ _ _ _ _ _ _ _ _ _ _ (by decide) r j)).trans ?_
  unfold gateRow gate
  simp only [product_apply]

/-! The four column ranges the gates are cut from. -/

theorem cutI (r : Fin 8192) (q : Fin 1024) : idx_main_v27 (ix2 r q) = ix2 r (colI q) :=
  funext fun a => Fin.ext (by match a with | ⟨0, _⟩ => rfl | ⟨1, _⟩ => rfl)
theorem cutF (r : Fin 8192) (q : Fin 1024) : idx_main_v28 (ix2 r q) = ix2 r (colF q) :=
  funext fun a => Fin.ext (by
    match a with
    | ⟨0, _⟩ => rfl
    | ⟨1, _⟩ => show 1024 + q.val = q.val + 1024; omega)
theorem cutC (r : Fin 8192) (q : Fin 1024) : idx_main_v29 (ix2 r q) = ix2 r (colC q) :=
  funext fun a => Fin.ext (by
    match a with
    | ⟨0, _⟩ => rfl
    | ⟨1, _⟩ => show 2048 + q.val = q.val + 2048; omega)
theorem cutO (r : Fin 8192) (q : Fin 1024) : idx_main_v30 (ix2 r q) = ix2 r (colO q) :=
  funext fun a => Fin.ext (by
    match a with
    | ⟨0, _⟩ => rfl
    | ⟨1, _⟩ => show 3072 + q.val = q.val + 3072; omega)

/-- The reference's sigmoid, one over one plus the exponential of the negation with both ones the float word of
    1.0, is the logistic function. -/
theorem sigmoid_host (x : Ideal .f32) :
    FloatOps.hostDivf (FloatOps.ofBits .f32 0x3F800000#32 : Ideal .f32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = _
  rw [ofBits_one_f32]
  rfl

/-- The input gate at `(r, q)`. -/
theorem inGate_apply (r : Fin 8192) (q : Fin 1024) :
    val_main_v36 (F := Ideal) x0 x1 x3 x4 x5 (ix2 r q) = Ideal.logistic (gateRow x0 x1 x3 x4 x5 r (colI q)) := by
  rw [val_main_v36_apply, val_main_v35_apply, val_main_cst_5_apply, val_main_v34_apply, val_main_v33_apply,
    val_main_cst_4_apply, val_main_v32_apply, val_main_v31_apply, val_main_v27_apply, cutI, gates_apply]
  exact sigmoid_host _

/-- The forget gate at `(r, q)`. -/
theorem forgetGate_apply (r : Fin 8192) (q : Fin 1024) :
    val_main_v42 (F := Ideal) x0 x1 x3 x4 x5 (ix2 r q) = Ideal.logistic (gateRow x0 x1 x3 x4 x5 r (colF q)) := by
  rw [val_main_v42_apply, val_main_v41_apply, val_main_cst_7_apply, val_main_v40_apply, val_main_v39_apply,
    val_main_cst_6_apply, val_main_v38_apply, val_main_v37_apply, val_main_v28_apply, cutF, gates_apply]
  exact sigmoid_host _

/-- The cell candidate at `(r, q)`. -/
theorem candidate_apply (r : Fin 8192) (q : Fin 1024) :
    val_main_v43 (F := Ideal) x0 x1 x3 x4 x5 (ix2 r q) = Ideal.tanh (gateRow x0 x1 x3 x4 x5 r (colC q)) := by
  rw [val_main_v43_apply, val_main_v29_apply, cutC, gates_apply]
  rfl

/-- The output gate at `(r, q)`. -/
theorem outGate_apply (r : Fin 8192) (q : Fin 1024) :
    val_main_v49 (F := Ideal) x0 x1 x3 x4 x5 (ix2 r q) = Ideal.logistic (gateRow x0 x1 x3 x4 x5 r (colO q)) := by
  rw [val_main_v49_apply, val_main_v48_apply, val_main_cst_9_apply, val_main_v47_apply, val_main_v46_apply,
    val_main_cst_8_apply, val_main_v45_apply, val_main_v44_apply, val_main_v30_apply, cutO, gates_apply]
  exact sigmoid_host _

/-- The cell state before its layer norm at `(r, q)`. -/
theorem preCell_apply (r : Fin 8192) (q : Fin 1024) :
    val_main_v52 (F := Ideal) x0 x1 x2 x3 x4 x5 (ix2 r q)
      = preCell (gateRow x0 x1 x3 x4 x5 r) (fun q' => x2 (ix2 r q')) q := by
  rw [val_main_v52_apply, val_main_v50_apply, val_main_v51_apply, forgetGate_apply, inGate_apply, candidate_apply]
  rfl

/-- The second result, the new cell state, at `(r, q)`. -/
theorem cell_apply (r : Fin 8192) (q : Fin 1024) :
    val_main_v76 (F := Ideal) x0 x1 x2 x3 x4 x5 x6 x7 (ix2 r q) = cellAt x0 x1 x2 x3 x4 x5 x6 x7 r q := by
  rw [cellLn_eq]
  refine (lnHost_apply _ _ _ _ _ _ _ _ _ _ _ (by decide) r q).trans ?_
  unfold cellAt cell
  have hrow : (fun q' => val_main_v52 (F := Ideal) x0 x1 x2 x3 x4 x5 (ix2 r q'))
      = preCell (gateRow x0 x1 x3 x4 x5 r) (fun q' => x2 (ix2 r q')) := funext fun q' => preCell_apply x0 x1 x2 x3 x4 x5 r q'
  rw [hrow]

/-- The first result, the new hidden state, at `(r, q)`. -/
theorem hidden_apply (r : Fin 8192) (q : Fin 1024) :
    val_main_v78 (F := Ideal) x0 x1 x2 x3 x4 x5 x6 x7 (ix2 r q) = hiddenAt x0 x1 x2 x3 x4 x5 x6 x7 r q := by
  rw [val_main_v78_apply, val_main_v77_apply, outGate_apply, cell_apply]
  rfl

/-- The two results as whole arrays. -/
theorem cell_eq : val_main_v76 (F := Ideal) x0 x1 x2 x3 x4 x5 x6 x7 = cellArr x0 x1 x2 x3 x4 x5 x6 x7 :=
  funext fun i => by
    obtain ⟨r, q, rfl⟩ : ∃ (r : Fin 8192) (q : Fin 1024), i = ix2 r q := ⟨i 0, i 1, eq_ix2 i⟩
    exact cell_apply x0 x1 x2 x3 x4 x5 x6 x7 r q

theorem hidden_eq : val_main_v78 (F := Ideal) x0 x1 x2 x3 x4 x5 x6 x7 = hiddenArr x0 x1 x2 x3 x4 x5 x6 x7 :=
  funext fun i => by
    obtain ⟨r, q, rfl⟩ : ∃ (r : Fin 8192) (q : Fin 1024), i = ix2 r q := ⟨i 0, i 1, eq_ix2 i⟩
    exact hidden_apply x0 x1 x2 x3 x4 x5 x6 x7 r q

end stages

end Cert.ReferenceIdeal.Rows

end
-- ==== Proof.lean ====
/-
  An LSTM cell step with layer-normalised gates and cell state: the fused kernel against the array reference,
  on the extended reals.

  Both programs compute, for every batch row r of 8192 and state column q of 1024,

    gate   = input[r, ·] + LN₄₀₉₆(hx[r, ·] · Wᵀ; γ_h, β_h)                         (4096 columns: i | f | g | o)
    cy[r, q] = LN₁₀₂₄(σ(gate_f) · cx[r, ·] + σ(gate_i) · tanh(gate_g); γ_c, β_c)[q]
    hy[r, q] = σ(gate_o[q]) · tanh(cy[r, q])

  with LN_N(x; γ, β) = (x − μ) · rsqrt(var + ε) · γ + β, μ and var the row's mean and variance over the width word N.
  They spell it differently — the kernel feeds the product through bf16 and writes the logistic as one operation, the
  reference keeps f32 and writes 1 / (1 + e^(−x)); the kernel works on 32 blocks of 256 rows with the weights
  transposed beforehand, the reference on whole arrays — but on the extended reals a change of float format is the
  identity, the logistic function is that quotient by definition, a lane sum and a host sum are the same finite sum
  (the host's starts from a zero that adds nothing), and a matrix product into a zero accumulator is the host's dot
  product. No step moves a factor across a sum or cancels anything, so nothing needs the inputs finite: the
  precondition is never opened.

  RowSpec states the row functions and the two result arrays `hiddenArr`, `cellArr`. BodyRows reads the kernel body's
  stored entries as those row functions of the staged blocks' rows, Blocks carries that to the whole result arrays
  over the generated block-by-block run, and RefRows reads the reference's stages as the same functions over the
  generated read-at-an-index lemmas. Here the two runs are set side by side. The three frames are the generated
  ones; the idealization rewrote nothing, so there is nothing to preserve beyond `True`.
-/
import proofs.«410267_j28656021799664_3_alg».proof.Defs
import proofs.«410267_j28656021799664_3_alg».proof.Proof.Gen.Kernel
import proofs.«410267_j28656021799664_3_alg».proof.Proof.Gen.Kernel.Skeleton
import proofs.«410267_j28656021799664_3_alg».proof.Proof.Gen.Kernel.Launch
import proofs.«410267_j28656021799664_3_alg».proof.Proof.Gen.Kernel.Points
import proofs.«410267_j28656021799664_3_alg».proof.Proof.Gen.Kernel.Frame
import proofs.«410267_j28656021799664_3_alg».proof.Proof.Gen.KernelIdeal
import proofs.«410267_j28656021799664_3_alg».proof.Proof.Gen.KernelIdeal.Skeleton
import proofs.«410267_j28656021799664_3_alg».proof.Proof.Gen.KernelIdeal.Launch
import proofs.«410267_j28656021799664_3_alg».proof.Proof.Gen.KernelIdeal.Points
import proofs.«410267_j28656021799664_3_alg».proof.Proof.Gen.KernelIdeal.Frame
import proofs.«410267_j28656021799664_3_alg».proof.Proof.Gen.ReferenceIdeal
import proofs.«410267_j28656021799664_3_alg».proof.Proof.Gen.KernelIdeal.Value
import proofs.«410267_j28656021799664_3_alg».proof.Proof.Gen.ReferenceIdeal.Run
import proofs.«410267_j28656021799664_3_alg».proof.Proof.Gen.ReferenceIdeal.Read
import proofs.«410267_j28656021799664_3_alg».proof.Proof.Gen.Pre_finite_inputs
import proofs.«410267_j28656021799664_3_alg».proof.Proof.Blocks
import proofs.«410267_j28656021799664_3_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: it runs, and its run's post includes the arguments
    unchanged. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the eight arguments, the kernel's two result arrays end at `hiddenArr` and `cellArr`
    of its arguments (Blocks), and the reference's two results are the same functions of its arguments (RefRows),
    which are the kernel's. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun r h c => ⟨?_, ?_, (h c).2.2⟩)
    (Cert.ReferenceIdeal.Value.run (F := Ideal) m' ρ')
  · obtain ⟨a0, a1, a2, a3, a4, a5, a6, a7⟩ := hagree c
    refine (h c).1.trans ?_
    rw [Cert.ReferenceIdeal.Read.val_main_v78_eq, Cert.ReferenceIdeal.Rows.hidden_eq, a0, a1, a2, a3, a4, a5, a6, a7]
  · obtain ⟨a0, a1, a2, a3, a4, a5, a6, a7⟩ := hagree c
    refine (h c).2.1.trans ?_
    rw [Cert.ReferenceIdeal.Read.val_main_v76_eq, Cert.ReferenceIdeal.Rows.cell_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
